-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x384 : Shape := ⟨3, ![16, 4096, 384]⟩
abbrev S16x384 : Shape := ⟨2, ![16, 384]⟩
abbrev S1x384x384 : Shape := ⟨3, ![1, 384, 384]⟩
abbrev S_ : Shape := ⟨0, ![]⟩

class Facts : Prop where
  bcast_S_S16x4096x384 : S_.BroadcastsInDim S16x4096x384 (![] : Fin 0 → Fin S16x4096x384.rank)
  reducesTo_S16x4096x384_S_d0_1_2 : S16x4096x384.ReducesTo [0, 1, 2] S_
  h_S_ : 0 < S_.numel
  bcast_S_S16x384 : S_.BroadcastsInDim S16x384 (![] : Fin 0 → Fin S16x384.rank)
  reducesTo_S16x384_S_d0_1 : S16x384.ReducesTo [0, 1] S_
  bcast_S_S1x384x384 : S_.BroadcastsInDim S1x384x384 (![] : Fin 0 → Fin S1x384x384.rank)
  reducesTo_S1x384x384_S_d0_1_2 : S1x384x384.ReducesTo [0, 1, 2] S_

variable [Facts]

def fn {F : FTy → Type} [FloatOps F] (main_arg0 : FVec F S16x4096x384 .f32) (main_arg1 : FVec F S16x384 .f32) (main_arg2 : FVec F S1x384x384 .f32) : IVec S_ 1 :=
  let main_v0 : FVec F S16x4096x384 .f32 := Host.absf main_arg0
  let main_cst : FVec F S_ .f32 := constant S_ .f32 0x7F800000#32
  let main_v1 : FVec F S16x4096x384 .f32 := broadcastInDim S16x4096x384 ![] bcast_S_S16x4096x384 main_cst
  let main_v2 : IVec S16x4096x384 1 := cmpf .olt main_v0 main_v1
  let main_c : IVec S_ 1 := constantI S_ 1 1#1
  let main_v3 : IVec S_ 1 := (fun x v => Host.reduce IntOp.andi x v reducesTo_S16x4096x384_S_d0_1_2 h_S_) main_v2 main_c
  let main_v4 : FVec F S16x384 .f32 := Host.absf main_arg1
  let main_cst_0 : FVec F S_ .f32 := constant S_ .f32 0x7F800000#32
  let main_v5 : FVec F S16x384 .f32 := broadcastInDim S16x384 ![] bcast_S_S16x384 main_cst_0
  let main_v6 : IVec S16x384 1 := cmpf .olt main_v4 main_v5
  let main_c_1 : IVec S_ 1 := constantI S_ 1 1#1
  let main_v7 : IVec S_ 1 := (fun x v => Host.reduce IntOp.andi x v reducesTo_S16x384_S_d0_1 h_S_) main_v6 main_c_1
  let main_v8 : IVec S_ 1 := andi main_v3 main_v7
  let main_v9 : FVec F S1x384x384 .f32 := Host.absf main_arg2
  let main_cst_2 : FVec F S_ .f32 := constant S_ .f32 0x7F800000#32
  let main_v10 : FVec F S1x384x384 .f32 := broadcastInDim S1x384x384 ![] bcast_S_S1x384x384 main_cst_2
  let main_v11 : IVec S1x384x384 1 := cmpf .olt main_v9 main_v10
  let main_c_3 : IVec S_ 1 := constantI S_ 1 1#1
  let main_v12 : IVec S_ 1 := (fun x v => Host.reduce IntOp.andi x v reducesTo_S1x384x384_S_d0_1_2 h_S_) main_v11 main_c_3
  let main_v13 : IVec S_ 1 := andi main_v8 main_v12
  main_v13
-- ==== Kernel.lean ====
abbrev S16x4096x384 : Shape := ⟨3, ![16, 4096, 384]⟩
abbrev S16x384 : Shape := ⟨2, ![16, 384]⟩
abbrev S1x384x384 : Shape := ⟨3, ![1, 384, 384]⟩
abbrev S_ : Shape := ⟨0, ![]⟩
abbrev S16x1x384 : Shape := ⟨3, ![16, 1, 384]⟩
abbrev S16x384x384 : Shape := ⟨3, ![16, 384, 384]⟩
abbrev S16x384x1 : Shape := ⟨3, ![16, 384, 1]⟩
abbrev S16x384x4096 : Shape := ⟨3, ![16, 384, 4096]⟩
abbrev S1x384x2048 : Shape := ⟨3, ![1, 384, 2048]⟩
abbrev S384x384 : Shape := ⟨2, ![384, 384]⟩
abbrev S384x2048 : Shape := ⟨2, ![384, 2048]⟩

abbrev nBuf : Space → Nat
  | .hbm => 23
  | .vmem => 6
  | .smem => 0
  | _ => 0

abbrev bufTy : (tb : Table) → Fin (tcTables nBuf tb) → BufTy
  | .hbm, ⟨0, _⟩ => ⟨S16x4096x384, .f32⟩
  | .hbm, ⟨1, _⟩ => ⟨S16x384, .f32⟩
  | .hbm, ⟨2, _⟩ => ⟨S1x384x384, .f32⟩
  | .hbm, ⟨3, _⟩ => ⟨S_, .f32⟩
  | .hbm, ⟨4, _⟩ => ⟨S1x384x384, .f32⟩
  | .hbm, ⟨5, _⟩ => ⟨S1x384x384, .f32⟩
  | .hbm, ⟨6, _⟩ => ⟨S16x1x384, .f32⟩
  | .hbm, ⟨7, _⟩ => ⟨S16x384x384, .f32⟩
  | .hbm, ⟨8, _⟩ => ⟨S16x384x384, .f32⟩
  | .hbm, ⟨9, _⟩ => ⟨S16x384x384, .f32⟩
  | .hbm, ⟨10, _⟩ => ⟨S16x384x384, .f32⟩
  | .hbm, ⟨11, _⟩ => ⟨S_, .f32⟩
  | .hbm, ⟨12, _⟩ => ⟨S16x384, .f32⟩
  | .hbm, ⟨13, _⟩ => ⟨S_, .f32⟩
  | .hbm, ⟨14, _⟩ => ⟨S16x384, .f32⟩
  | .hbm, ⟨15, _⟩ => ⟨S16x384, .f32⟩
  | .hbm, ⟨16, _⟩ => ⟨S16x384, .f32⟩
  | .hbm, ⟨17, _⟩ => ⟨S16x384x1, .f32⟩
  | .hbm, ⟨18, _⟩ => ⟨S16x384x384, .f32⟩
  | .hbm, ⟨19, _⟩ => ⟨S16x384x384, .f32⟩
  | .hbm, ⟨20, _⟩ => ⟨S16x384x4096, .f32⟩
  | .hbm, ⟨21, _⟩ => ⟨S16x384x4096, .f32⟩
  | .hbm, ⟨22, _⟩ => ⟨S16x4096x384, .f32⟩
  | .local _ .vmem, ⟨0, _⟩ => ⟨S1x384x384, .f32⟩
  | .local _ .vmem, ⟨1, _⟩ => ⟨S1x384x384, .f32⟩
  | .local _ .vmem, ⟨2, _⟩ => ⟨S1x384x2048, .f32⟩
  | .local _ .vmem, ⟨3, _⟩ => ⟨S1x384x2048, .f32⟩
  | .local _ .vmem, ⟨4, _⟩ => ⟨S1x384x2048, .f32⟩
  | .local _ .vmem, ⟨5, _⟩ => ⟨S1x384x2048, .f32⟩
  | _, _ => ⟨S16x4096x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x384x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x384x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x384x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S_S1x384x384 : S_.BroadcastsInDim S1x384x384 (![] : Fin 0 → Fin S1x384x384.rank)
  bcast_S16x384_S16x1x384_0_2 : S16x384.BroadcastsInDim S16x1x384 (![0, 2] : Fin 2 → Fin S16x1x384.rank)
  bcast_S1x384x384_S16x384x384_0_1_2 : S1x384x384.BroadcastsInDim S16x384x384 (![0, 1, 2] : Fin 3 → Fin S16x384x384.rank)
  bcast_S16x1x384_S16x384x384_0_1_2 : S16x1x384.BroadcastsInDim S16x384x384 (![0, 1, 2] : Fin 3 → Fin S16x384x384.rank)
  reducesTo_S16x384x384_S16x384_d2 : S16x384x384.ReducesTo [2] S16x384
  h_S_ : 0 < S_.numel
  bcast_S_S16x384 : S_.BroadcastsInDim S16x384 (![] : Fin 0 → Fin S16x384.rank)
  bcast_S16x384_S16x384x1_0_1 : S16x384.BroadcastsInDim S16x384x1 (![0, 1] : Fin 2 → Fin S16x384x1.rank)
  bcast_S16x384x1_S16x384x384_0_1_2 : S16x384x1.BroadcastsInDim S16x384x384 (![0, 1, 2] : Fin 3 → Fin S16x384x384.rank)
  shapeCasts_S16x4096x384_S16x384x4096 : S16x4096x384.ShapeCasts S16x384x4096
  inb_S1x384x384_S1x384x384_0_0_0 : ∀ a, (![0, 0, 0] : Fin 3 → Nat) a + S1x384x384.size a ≤ S1x384x384.size a
  h_S1x384x384 : 0 < S1x384x384.numel
  shapeCasts_S1x384x384_S384x384 : S1x384x384.ShapeCasts S384x384
  bitsLt_bf16_f32 : FTy.bits .bf16 < FTy.bits .f32
  inb_S1x384x2048_S1x384x2048_0_0_0 : ∀ a, (![0, 0, 0] : Fin 3 → Nat) a + S1x384x2048.size a ≤ S1x384x2048.size a
  h_S1x384x2048 : 0 < S1x384x2048.numel
  shapeCasts_S1x384x2048_S384x2048 : S1x384x2048.ShapeCasts S384x2048
  shapeCasts_S384x2048_S1x384x2048 : S384x2048.ShapeCasts S1x384x2048
  shapeCasts_S16x384x4096_S16x4096x384 : S16x384x4096.ShapeCasts S16x4096x384
  dot_S384x384_S384x2048_S384x2048_1_0_0_1_n_n_wf : DotDims.WF S384x384 S384x2048 S384x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x384x384.size a ≤ S16x384x384.size a
  hwx0_0 : ∀ i : grid0.Coords, EltTy.bits .f32 = 32 ∨ (Rect.block (s := S16x384x384) S1x384x384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x384x2048.size a ≤ S16x384x4096.size a
  hwx0_1 : ∀ i : grid0.Coords, EltTy.bits .f32 = 32 ∨ (Rect.block (s := S16x384x4096) S1x384x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x384x2048.size a ≤ S16x384x4096.size a
  hwx0_2 : ∀ i : grid0.Coords, EltTy.bits .f32 = 32 ∨ (Rect.block (s := S16x384x4096) S1x384x2048.size (cc0_transform_2 i) (hinb0_2 i)).WholeWords (EltTy.packing .f32)

variable [Facts₀]

def dot_S384x384_S384x2048_S384x2048_1_0_0_1_n_n : DotDims S384x384 S384x2048 S384x2048 where
  lhsContracting := [1]
  rhsContracting := [0]
  lhsNonContracting := [0]
  rhsNonContracting := [1]
  lhsBatch := []
  rhsBatch := []
  wf := dot_S384x384_S384x2048_S384x2048_1_0_0_1_n_n_wf

abbrev win0_0 : Pipeline.Window sig grid0 :=
  Pipeline.Window.ofSpec (Memref.whole main_v13) S1x384x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S1x384x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x384x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x4096x384 : Shape := ⟨3, ![16, 4096, 384]⟩
abbrev S16x384 : Shape := ⟨2, ![16, 384]⟩
abbrev S1x384x384 : Shape := ⟨3, ![1, 384, 384]⟩
abbrev S_ : Shape := ⟨0, ![]⟩
abbrev S16x1x384 : Shape := ⟨3, ![16, 1, 384]⟩
abbrev S16x384x384 : Shape := ⟨3, ![16, 384, 384]⟩
abbrev S16x384x1 : Shape := ⟨3, ![16, 384, 1]⟩
abbrev S16x384x4096 : Shape := ⟨3, ![16, 384, 4096]⟩

abbrev nBuf : Space → Nat
  | .hbm => 23
  | .vmem => 0
  | .smem => 0
  | _ => 0

abbrev bufTy : (tb : Table) → Fin (tcTables nBuf tb) → BufTy
  | .hbm, ⟨0, _⟩ => ⟨S16x4096x384, .f32⟩
  | .hbm, ⟨1, _⟩ => ⟨S16x384, .f32⟩
  | .hbm, ⟨2, _⟩ => ⟨S1x384x384, .f32⟩
  | .hbm, ⟨3, _⟩ => ⟨S_, .f32⟩
  | .hbm, ⟨4, _⟩ => ⟨S1x384x384, .f32⟩
  | .hbm, ⟨5, _⟩ => ⟨S1x384x384, .f32⟩
  | .hbm, ⟨6, _⟩ => ⟨S16x1x384, .f32⟩
  | .hbm, ⟨7, _⟩ => ⟨S16x384x384, .f32⟩
  | .hbm, ⟨8, _⟩ => ⟨S16x384x384, .f32⟩
  | .hbm, ⟨9, _⟩ => ⟨S16x384x384, .f32⟩
  | .hbm, ⟨10, _⟩ => ⟨S16x384x384, .f32⟩
  | .hbm, ⟨11, _⟩ => ⟨S_, .f32⟩
  | .hbm, ⟨12, _⟩ => ⟨S16x384, .f32⟩
  | .hbm, ⟨13, _⟩ => ⟨S_, .f32⟩
  | .hbm, ⟨14, _⟩ => ⟨S16x384, .f32⟩
  | .hbm, ⟨15, _⟩ => ⟨S16x384, .f32⟩
  | .hbm, ⟨16, _⟩ => ⟨S16x384, .f32⟩
  | .hbm, ⟨17, _⟩ => ⟨S16x384x1, .f32⟩
  | .hbm, ⟨18, _⟩ => ⟨S16x384x384, .f32⟩
  | .hbm, ⟨19, _⟩ => ⟨S16x384x384, .f32⟩
  | .hbm, ⟨20, _⟩ => ⟨S16x384x4096, .f32⟩
  | .hbm, ⟨21, _⟩ => ⟨S16x384x4096, .f32⟩
  | .hbm, ⟨22, _⟩ => ⟨S16x4096x384, .f32⟩
  | _, _ => ⟨S16x4096x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  bcast_S_S1x384x384 : S_.BroadcastsInDim S1x384x384 (![] : Fin 0 → Fin S1x384x384.rank)
  bcast_S16x384_S16x1x384_0_2 : S16x384.BroadcastsInDim S16x1x384 (![0, 2] : Fin 2 → Fin S16x1x384.rank)
  bcast_S1x384x384_S16x384x384_0_1_2 : S1x384x384.BroadcastsInDim S16x384x384 (![0, 1, 2] : Fin 3 → Fin S16x384x384.rank)
  bcast_S16x1x384_S16x384x384_0_1_2 : S16x1x384.BroadcastsInDim S16x384x384 (![0, 1, 2] : Fin 3 → Fin S16x384x384.rank)
  reducesTo_S16x384x384_S16x384_d2 : S16x384x384.ReducesTo [2] S16x384
  h_S_ : 0 < S_.numel
  bcast_S_S16x384 : S_.BroadcastsInDim S16x384 (![] : Fin 0 → Fin S16x384.rank)
  bcast_S16x384_S16x384x1_0_1 : S16x384.BroadcastsInDim S16x384x1 (![0, 1] : Fin 2 → Fin S16x384x1.rank)
  bcast_S16x384x1_S16x384x384_0_1_2 : S16x384x1.BroadcastsInDim S16x384x384 (![0, 1, 2] : Fin 3 → Fin S16x384x384.rank)
  shapeCasts_S16x4096x384_S16x384x4096 : S16x4096x384.ShapeCasts S16x384x4096
  shapeCasts_S16x384x4096_S16x4096x384 : S16x384x4096.ShapeCasts S16x4096x384
  dot_S16x384x384_S16x384x4096_S16x384x4096_2_1_1_2_0_0_wf : DotDims.WF S16x384x384 S16x384x4096 S16x384x4096 [2] [1] [1] [2] [0] [0]

variable [Facts₀]

def dot_S16x384x384_S16x384x4096_S16x384x4096_2_1_1_2_0_0 : DotDims S16x384x384 S16x384x4096 S16x384x4096 where
  lhsContracting := [2]
  rhsContracting := [1]
  lhsNonContracting := [1]
  rhsNonContracting := [2]
  lhsBatch := [0]
  rhsBatch := [0]
  wf := dot_S16x384x384_S16x384x4096_S16x384x4096_2_1_1_2_0_0_wf

class Facts : Prop extends Facts₀ where

variable [Facts]
-- ==== Proof.LibPlainMatmul.lean ====
/-
  A plain matrix product read at an entry.  For the dimension numbers of an `M × K` by `K × N` product
  (`DotDims.plain`: the left operand contracted on its columns, the right on its rows, no batch axis), a
  `tpu.matmul` into the zero splat is, at the extended reals and at row `r`, column `c`, the sum over
  `k : Fin K` of the left operand at `(r, k)` times the right at `(k, c)`.  Nothing here names a program.
-/
import Idealize.ShloMosaic.PureOps.Ideal.Laws
import Idealize.ShloMosaic.Lib.ValueIdx

namespace Cert.PlainMatmul

open Idealize.ShloMosaic Idealize.ShloMosaic.ValueIdx

/-- The left operand's index of a plain product at output `(r, c)` and contraction coordinate `k` is `(r, k)`. -/
theorem lhsIdx_plain {M K N : ℕ} (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 r c) _).trans hk

/-- The right operand's index there is `(k, c)`. -/
theorem rhsIdx_plain {M K N : ℕ} (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  funext a
  apply Fin.ext
  match a with
  | ⟨0, _⟩ => exact ((DotDims.plain M K N).rhsIdx_val_of_single rfl (ix2 r c) _).trans hk
  | ⟨1, _⟩ => rfl

/-- A plain `tpu.matmul` into zeros, at entry `(r, c)`, is `∑ k, a (r, k) * b (k, c)` on the extended reals. -/
theorem matmul_plain_zero_apply {M K N : ℕ} {φ₁ φ₂ : FTy}
    (a : FVec Ideal ⟨2, ![M, K]⟩ φ₁) (b : FVec Ideal ⟨2, ![K, N]⟩ φ₂) (prec : Option ContractPrecision) (r : Fin M) (c : Fin N) :
    matmul (DotDims.plain M K N) prec a b (constant ⟨2, ![M, N]⟩ .f32 0x00000000#32) (ix2 r c)
      = ∑ k : Fin K, a (ix2 r k) * b (ix2 k c) := by
  show FloatOps.matmul (DotDims.plain M K N) prec a b (constant ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.PlainMatmul
-- ==== Proof.Payload.lean ====
/-
  What the kernel body stores, entry by entry.  The body loads a [1, 384, 384] block of the weights and a
  [1, 384, 2048] block of the data, drops the unit axis of each, multiplies the two matrices into a zero accumulator
  and puts the unit axis back.  On the extended reals the two narrowings to bf16 are the identity, so the stored
  block at (u, o, q) is the sum over `i : Fin 384` of the weight block at (0, o, i) times the data block at (0, i, q).
-/
import proofs.«180106_j39444979646806_1_alg».proof.Proof.Gen.KernelIdeal.Skeleton
import proofs.«180106_j39444979646806_1_alg».proof.Proof.LibPlainMatmul
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx

/-- The stored block at (u, o, q): the row `o` of the weight block against the column `q` of the data block. -/
theorem pay_apply (x0 : Vec Ideal S1x384x384 .f32) (x1 : Vec Ideal S1x384x2048 .f32) (u : Fin 1) (o : Fin 384) (q : Fin 2048) :
    k0_pay1 (F := Ideal) x0 x1 (ix3 u o q) = ∑ i : Fin 384, x0 (ix3 (0 : Fin 1) o i) * x1 (ix3 (0 : Fin 1) i q) := by
  unfold k0_pay1
  refine (shapeCast_ab_1ab_apply _ _ u o q).trans ?_
  refine (Cert.PlainMatmul.matmul_plain_zero_apply (M := 384) (K := 384) (N := 2048) _ _ none o q).trans ?_
  refine Finset.sum_congr rfl fun i _ => ?_
  show shapeCast S384x384 x0 shapeCasts_S1x384x384_S384x384 (ix2 o i) * shapeCast S384x2048 x1 shapeCasts_S1x384x2048_S384x2048 (ix2 i q) = _
  rw [shapeCast_1ab_ab_apply, shapeCast_1ab_ab_apply]

end Cert.KernelIdeal.Payload

end
-- ==== Proof.BatchedProduct.lean ====
/-
  The batched matrix product both programs compute, as one function of its two operand arrays.
  For a weight array `w` of shape [16, 384, 384] and a data array `x` of shape [16, 384, 4096], the entry of the
  product at batch `b`, output row `o` and column `p` is the sum over the input feature `i : Fin 384` of
  `w[b, o, i] · x[b, i, p]`, on the extended reals.  Nothing here names a program: the kernel's blocks and the
  reference's `dot_general` are each shown to be this function in their own modules.
-/
import Idealize.ShloMosaic.PureOps.Ideal
import Idealize.ShloMosaic.Lib.ValueIdx

noncomputable section

namespace Cert.BatchedProduct

open Idealize.ShloMosaic Idealize.ShloMosaic.ValueIdx

/-- `prod w x (b, o, p) = ∑ i, w (b, o, i) * x (b, i, p)`: one matrix product per batch entry, the contraction over
    the 384 input features. -/
def prod (w : (⟨3, ![16, 384, 384]⟩ : Shape).Idx → EReal) (x : (⟨3, ![16, 384, 4096]⟩ : Shape).Idx → EReal) :
    (⟨3, ![16, 384, 4096]⟩ : Shape).Idx → EReal :=
  fun j => ∑ i : Fin 384, w (ix3 (j 0) (j 1) i) * x (ix3 (j 0) i (j 2))

/-- The same, with the entry written by its coordinates. -/
theorem prod_apply (w : (⟨3, ![16, 384, 384]⟩ : Shape).Idx → EReal) (x : (⟨3, ![16, 384, 4096]⟩ : Shape).Idx → EReal)
    (b : Fin 16) (o : Fin 384) (p : Fin 4096) :
    prod w x (ix3 b o p) = ∑ i : Fin 384, w (ix3 b o i) * x (ix3 b i p) := rfl

end Cert.BatchedProduct

end
-- ==== Proof.Blocks.lean ====
/-
  From the kernel's blocks to its whole output array.  Grid point `t` = (b, l) of the 16 × 2 grid holds the
  weight matrix of batch entry `b` (block (b, 0, 0) of the [16, 384, 384] weights), the columns
  `2048·l … 2048·l + 2047` of batch entry `b`'s data (block (b, 0, l) of the [16, 384, 4096] data), and writes back
  block (b, 0, l) of the [16, 384, 4096] output.  What it writes back is that block of ONE whole-array function, the
  batched product of the two arrays as the region finds them: the contraction runs over a whole axis inside each
  block, so no sum is split between points.  The 32 output blocks tile the array, so after the run the array is the
  batched product.
-/
import proofs.«180106_j39444979646806_1_alg».proof.Proof.Gen.KernelIdeal.Frame
import proofs.«180106_j39444979646806_1_alg».proof.Proof.Payload
import proofs.«180106_j39444979646806_1_alg».proof.Proof.BatchedProduct
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (m : (ℓ : Loc nD τ sig) → Buf (Elt Ideal) ℓ)

/-- The weights as the region finds them: what the host lines before it left in the first operand's array. -/
abbrev wArr (c : Dev nD) : FVec Ideal S16x384x384 .f32 := V m c main_v13
/-- The data as the region finds them: the second operand's array. -/
abbrev xArr (c : Dev nD) : FVec Ideal S16x384x4096 .f32 := V m c main_v14
/-- The weight block the body loads at point `t`. -/
abbrev wBlk (c : Dev nD) (t : Fin cfg0.N) : Vec Ideal S1x384x384 .f32 := iblk m c 0 t
/-- The data block the body loads at point `t`. -/
abbrev xBlk (c : Dev nD) (t : Fin cfg0.N) : Vec Ideal S1x384x2048 .f32 := iblk m c 1 t

theorem zeros3 : (![0, 0, 0] : Fin 3 → Nat) = fun _ => 0 := funext fun a => by fin_cases a <;> rfl

/-- The three index maps over the grid: the weight block follows the output block's batch entry and is otherwise
    block 0; the data block is the output block's; the output block's row-block index is 0, its batch entry at most
    15, its column-block index at most 1. -/
theorem idx_facts : ∀ t : Fin cfg0.N,
    win0_0.index t (0 : Fin 3) = win0_2.index t (0 : Fin 3)
    ∧ win0_0.index t (1 : Fin 3) = 0
    ∧ win0_0.index t (2 : Fin 3) = 0
    ∧ win0_1.index t (0 : Fin 3) = win0_2.index t (0 : Fin 3)
    ∧ win0_1.index t (1 : Fin 3) = 0
    ∧ win0_1.index t (2 : Fin 3) = win0_2.index t (2 : Fin 3)
    ∧ win0_2.index t (1 : Fin 3) = 0
    ∧ win0_2.index t (0 : Fin 3) ≤ 15
    ∧ win0_2.index t (2 : Fin 3) ≤ 1 :=
  (by decide +kernel : ∀ t : Fin grid0.N, _)

/-- Every (batch entry, column block) pair is some point's output block. -/
theorem idx_onto : ∀ (b : Fin 16) (l : Fin 2), ∃ t : Fin cfg0.N, win0_2.index t = ![b.val, 0, l.val] :=
  (by decide +kernel : ∀ (b : Fin 16) (l : Fin 2), ∃ t : Fin grid0.N, win0_2.index t = ![b.val, 0, l.val])

/-- What point `t` writes back is its block of the batched product of the two arrays. -/
theorem flushed_eq (c : Dev nD) (t : Fin cfg0.N) :
    (dats m 0 c).flushed 2 t
      = ((cfg0.win 2).blk t).view.read (Elt Ideal) (Cert.BatchedProduct.prod (wArr m c) (xArr m c)) := by
  show (cfg0.win 2).cut (grid0.coords t) ((dats m 0 c).after 2 t) = _
  rw [after0_2]
  unfold out0_2
  rw [View.canon_unit_zero zeros3]
  simp only [View.ld_unit_zero (S := S1x384x384) zeros3, View.ld_unit_zero (S := S1x384x2048) zeros3]
  obtain ⟨e0, e1, e2, e3, e4, e5, e6, e7, e8⟩ := idx_facts t
  funext j
  obtain ⟨u, o, q, rfl⟩ : ∃ (u : Fin 1) (o : Fin 384) (q : Fin 2048), j = ix3 u o q := ⟨j 0, j 1, j 2, eq_ix3 j⟩
  obtain ⟨b, o', p, hE⟩ : ∃ (b : Fin 16) (o' : Fin 384) (p : Fin 4096),
      ((cfg0.win 2).blk t).view.emb (ix3 u o q) = ix3 b o' p :=
    ⟨_, _, _, eq_ix3 (n0 := 16) (n1 := 384) (n2 := 4096) _⟩
  have hu : u.val = 0 := by have := u.isLt; omega
  have hb : win0_2.index t (0 : Fin 3) * 1 + 1 * u.val = b.val := congrArg (fun z : S16x384x4096.Idx => (z 0).val) hE
  have ho : win0_2.index t (1 : Fin 3) * 384 + 1 * o.val = o'.val := congrArg (fun z : S16x384x4096.Idx => (z 1).val) hE
  have hp : win0_2.index t (2 : Fin 3) * 2048 + 1 * q.val = p.val := congrArg (fun z : S16x384x4096.Idx => (z 2).val) hE
  show k0_pay1 (F := Ideal) (wBlk m c t) (xBlk m c t) (ix3 u o q)
    = Cert.BatchedProduct.prod (wArr m c) (xArr m c) (((cfg0.win 2).blk t).view.emb (ix3 u o q))
  refine ((Cert.KernelIdeal.Payload.pay_apply (wBlk m c t) (xBlk m c t) u o q).trans ?_).trans
    (congrArg (Cert.BatchedProduct.prod (wArr m c) (xArr m c)) hE).symm
  rw [Cert.BatchedProduct.prod_apply]
  refine Finset.sum_congr rfl fun i _ => ?_
  have h0 : ((cfg0.win 0).blk t).view.emb (ix3 (0 : Fin 1) o i) = ix3 b o' i := by
    funext a; apply Fin.ext
    match a with
    | ⟨0, _⟩ => show win0_0.index t (0 : Fin 3) * 1 + 1 * 0 = b.val; omega
    | ⟨1, _⟩ => show win0_0.index t (1 : Fin 3) * 384 + 1 * o.val = o'.val; omega
    | ⟨2, _⟩ => show win0_0.index t (2 : Fin 3) * 384 + 1 * i.val = i.val; omega
  have h1 : ((cfg0.win 1).blk t).view.emb (ix3 (0 : Fin 1) i q) = ix3 b i p := by
    funext a; apply Fin.ext
    match a with
    | ⟨0, _⟩ => show win0_1.index t (0 : Fin 3) * 1 + 1 * 0 = b.val; omega
    | ⟨1, _⟩ => show win0_1.index t (1 : Fin 3) * 384 + 1 * i.val = i.val; omega
    | ⟨2, _⟩ => show win0_1.index t (2 : Fin 3) * 2048 + 1 * q.val = p.val; omega
  show wArr m c (((cfg0.win 0).blk t).view.emb (ix3 (0 : Fin 1) o i)) * xArr m c (((cfg0.win 1).blk t).view.emb (ix3 (0 : Fin 1) i q))
    = wArr m c (ix3 b o' i) * xArr m c (ix3 b i p)
  rw [h0, h1]

/-- An index of the output array is in point `t`'s block iff each coordinate is in the block's range on its axis. -/
theorem mem_blk (t : Fin cfg0.N) (i : S16x384x4096.Idx) :
    i ∈ ((cfg0.win 2).blk t).view.set ↔ ∀ a : Fin 3, win0_2.index t a * S1x384x2048.size a ≤ (i a).val
      ∧ (i a).val < win0_2.index t a * S1x384x2048.size a + S1x384x2048.size a := by
  show i ∈ ((View.whole main_v15).slice (win0_2.rect t)).set ↔ _
  rw [View.set_slice_whole, Rect.mem_set_unit]
  exact Iff.rfl

/-- The output blocks tile the array: entry (b, o, p) is in the block of the point with batch entry `b` and column
    block `p / 2048`. -/
theorem cover (i : S16x384x4096.Idx) :
    ∃ t : Fin cfg0.N, (cfg0.win 2).flush t = true ∧ i ∈ ((cfg0.win 2).blk t).view.set := by
  have h0 : (i 0).val < 16 := (i 0).isLt
  have h1 : (i 1).val < 384 := (i 1).isLt
  have h2 : (i 2).val < 4096 := (i 2).isLt
  obtain ⟨t, ht⟩ := idx_onto ⟨(i 0).val, h0⟩ ⟨(i 2).val / 2048, by omega⟩
  have q0 : win0_2.index t (0 : Fin 3) = (i 0).val := congrFun ht 0
  have q1 : win0_2.index t (1 : Fin 3) = 0 := congrFun ht 1
  have q2 : win0_2.index t (2 : Fin 3) = (i 2).val / 2048 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 384 ≤ (i 1).val ∧ (i 1).val < win0_2.index t (1 : Fin 3) * 384 + 384; omega
  | ⟨2, _⟩ => show win0_2.index t (2 : Fin 3) * 2048 ≤ (i 2).val ∧ (i 2).val < win0_2.index t (2 : Fin 3) * 2048 + 2048; omega

/-- The output array after the run is the batched product of the two operand arrays as the region finds them. -/
theorem final (c : Dev nD) :
    (dats m 0 c).arrAt 2 cfg0.N = Cert.BatchedProduct.prod (wArr m c) (xArr m c) :=
  (dats m 0 c).arrAt_eq_of_cover 2 _ (fun t _ => flushed_eq m c t) (cover)

end Cert.KernelIdeal.Blocks

end
-- ==== Proof.KernelRun.lean ====
/-
  The kernel's run, read as a value.  Before the region the host lines compute the modulated, demodulated weights
  from `y` and `weight` and reinterpret `Efou`'s buffer as [16, 384, 4096]; these are the same host operations, with
  the same literals, as the reference's, so each array the region finds is the reference's stage of the arguments.
  The region leaves the batched product of the two in its output array, and the one host line after the region
  reinterprets that buffer as [16, 4096, 384].
-/
import proofs.«180106_j39444979646806_1_alg».proof.Proof.Blocks
import proofs.«180106_j39444979646806_1_alg».proof.Proof.Gen.ReferenceIdeal.Read
import Idealize.ShloMosaic.Lib.StableHlo.Run

set_option maxRecDepth 16384

noncomputable section

namespace Cert.KernelIdeal.KernelRun

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-- The weights the region finds: the scaled weight times `y`, times the reciprocal root of its row's sum of squares
    plus the small constant — the reference's weight stage of the same two arguments. -/
theorem wArr_eq (c : Dev nD) :
    Blocks.wArr m c = Cert.ReferenceIdeal.Read.val_main_v13 (F := Ideal)
      (m ((c : Thread nD τ).loc main_arg1)) (m ((c : Thread nD τ).loc main_arg2)) := by
  show StableHlo.after hostOps0 (fun b => m (c, b)) (Proc.devRef .tc main_v13) = _
  after_results
  rfl

/-- The data the region finds: `Efou`'s buffer read as [16, 384, 4096] — the reference's reshape stage. -/
theorem xArr_eq (c : Dev nD) :
    Blocks.xArr m c = Cert.ReferenceIdeal.Read.val_main_v14 (F := Ideal) (m ((c : Thread nD τ).loc main_arg0)) := by
  show StableHlo.after hostOps0 (fun b => m (c, b)) (Proc.devRef .tc main_v14) = _
  after_results
  rfl

/-- The result buffer after the line that follows the region: the output array's contents read as [16, 4096, 384]. -/
theorem result_eq (c : Dev nD) :
    Pipeline.afterTail₀ cfgs (dats m) 0 (V0 m) [hostOps1] c main_v16
      = shapeCast S16x4096x384 (Cert.BatchedProduct.prod (Blocks.wArr m c) (Blocks.xArr m c)) shapeCasts_S16x384x4096_S16x4096x384 := by
  unfold Pipeline.afterTail₀
  show StableHlo.after hostOps1 _ (Proc.devRef .tc main_v16) = _
  after_results
  have hA : Pipeline.withArrays (cfgs 0).spec c (V0 m c) (fun w => (dats m 0 c).arrAt w (cfgs 0).N) (Proc.devRef .tc main_v15)
      = Cert.BatchedProduct.prod (Blocks.wArr m c) (Blocks.xArr m c) :=
    (Pipeline.withArrays_arr spec0 launch0.win.arr_inj c _ _ 2).trans (Blocks.final m c)
  rw [hA]
  rfl

/-- Every weakly fair execution of the kernel's program terminates with the result buffer at the batched product, read
    as [16, 4096, 384], of the reference's weight stage and reshaped data stage of the same arguments, and with the
    arguments unchanged. -/
theorem run : θ_run defs (onTc (τ := τ) (main (F := Ideal))) ⟨m, fun _ => 0, ρ⟩ fun r => ∀ c : Dev nD,
    r.2.mem ((c.tc : Thread nD τ).loc main_v16)
      = shapeCast S16x4096x384 (Cert.BatchedProduct.prod
          (Cert.ReferenceIdeal.Read.val_main_v13 (F := Ideal) (m ((c : Thread nD τ).loc main_arg1)) (m ((c : Thread nD τ).loc main_arg2)))
          (Cert.ReferenceIdeal.Read.val_main_v14 (F := Ideal) (m ((c : Thread nD τ).loc main_arg0))))
          shapeCasts_S16x384x4096_S16x4096x384
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  (θ_run defs _ _).mono (fun _ h c =>
    ⟨((h c).2 main_v16 (Pipeline.mem_restRefs_of main_v16 (by decide) (by decide))).trans
        ((result_eq m c).trans (by rw [wArr_eq, xArr_eq])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KernelRun

end
-- ==== Proof.Reference.lean ====
/-
  The reference's contraction is the batched product.  Its `dot_general` takes the batch axis 0 of both operands,
  contracts axis 2 of the weights against axis 1 of the data, and so at (b, o, p) sums over `i : Fin 384` the weight
  at (b, o, i) times the datum at (b, i, p): the generated reading of that operation states the sum with the two
  operand indices as functions of (b, o, p) and `i`, and those are the coordinate triples above.
-/
import proofs.«180106_j39444979646806_1_alg».proof.Proof.Gen.ReferenceIdeal.Run
import proofs.«180106_j39444979646806_1_alg».proof.Proof.Gen.ReferenceIdeal.Read
import proofs.«180106_j39444979646806_1_alg».proof.Proof.BatchedProduct

noncomputable section

namespace Cert.ReferenceIdeal.RefValue

open Cert.ReferenceIdeal Cert.ReferenceIdeal.Gen Cert.ReferenceIdeal.Read Idealize.ShloMosaic Idealize.ShloMosaic.ValueIdx

/-- The reference's contraction stage is the batched product of its weight stage and its reshaped data stage. -/
theorem dot_eq_prod (x0 : FVec Ideal S16x4096x384 .f32) (x1 : FVec Ideal S16x384 .f32) (x2 : FVec Ideal S1x384x384 .f32) :
    val_main_v15 (F := Ideal) x0 x1 x2
      = Cert.BatchedProduct.prod (val_main_v13 (F := Ideal) x1 x2) (val_main_v14 (F := Ideal) x0) := by
  funext j
  rw [val_main_v15_apply]
  unfold Cert.BatchedProduct.prod
  refine Finset.sum_congr rfl fun i _ => ?_
  have el : lidx_main_v15 j i = ix3 (j 0) (j 1) i :=
    funext fun a => Fin.ext (by match a with | ⟨0, _⟩ => rfl | ⟨1, _⟩ => rfl | ⟨2, _⟩ => rfl)
  have er : ridx_main_v15 j i = ix3 (j 0) i (j 2) :=
    funext fun a => Fin.ext (by match a with | ⟨0, _⟩ => rfl | ⟨1, _⟩ => rfl | ⟨2, _⟩ => rfl)
  rw [el, er]
  rfl

end Cert.ReferenceIdeal.RefValue

end
-- ==== Proof.lean ====
/-
  The kernel computes, per sample, out[b] = w[b] · Xr[b]: `w` the weight matrix modulated by `y` and demodulated by the
  reciprocal root of each row's sum of squares, `Xr` the sample's `Efou` buffer read as a 384 × 4096 matrix, and the
  result buffer read back as 4096 × 384.  The weights, the reinterpretation of `Efou` and the final reinterpretation
  are the same host operations, literal for literal, in the kernel's program and in the reference; the two differ only
  in the product: the reference contracts the 384 input features in one batched `dot_general`, the kernel in one
  matrix product per (sample, 2048-column block) grid point, its operands narrowed to bf16 first.  On the extended
  reals the narrowing is the identity, a product into a zero accumulator is the plain sum over the contracted axis,
  and the contraction lies whole inside every block, so both are the function
      (b, o, p) ↦ ∑ i, w[b, o, i] · Xr[b, i, p]
  of the same two arrays (Proof/BatchedProduct.lean; the kernel's side Proof/Payload.lean, Proof/Blocks.lean and
  Proof/KernelRun.lean, the reference's Proof/Reference.lean).  No law beyond reading both sums at an index is used,
  so finiteness of the inputs is never needed.  The idealization rewrote nothing, so `preserves` is `True`.
-/
import proofs.«180106_j39444979646806_1_alg».proof.Defs
import proofs.«180106_j39444979646806_1_alg».proof.Proof.Gen.Kernel
import proofs.«180106_j39444979646806_1_alg».proof.Proof.Gen.Kernel.Frame
import proofs.«180106_j39444979646806_1_alg».proof.Proof.Gen.KernelIdeal
import proofs.«180106_j39444979646806_1_alg».proof.Proof.Gen.KernelIdeal.Frame
import proofs.«180106_j39444979646806_1_alg».proof.Proof.Gen.ReferenceIdeal
import proofs.«180106_j39444979646806_1_alg».proof.Proof.Gen.ReferenceIdeal.Run
import proofs.«180106_j39444979646806_1_alg».proof.Proof.Gen.ReferenceIdeal.Read
import proofs.«180106_j39444979646806_1_alg».proof.Proof.Gen.Pre_finite_inputs
import proofs.«180106_j39444979646806_1_alg».proof.Proof.KernelRun
import proofs.«180106_j39444979646806_1_alg».proof.Proof.Reference
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the result buffer at the batched product of the weight stage and the reshaped data stage of
    their (agreeing) arguments, read as [16, 4096, 384]. -/
theorem algebraic : Cert.algebraic_KernelIdeal_ReferenceIdeal := by
  intro m ρ m' ρ' _ hagree
  refine ⟨_, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v16_eq]
  unfold Cert.ReferenceIdeal.Read.val_main_v16
  rw [Cert.ReferenceIdeal.RefValue.dot_eq_prod]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
